-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x625000 32) (main_arg2 : FVec F S128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S_ : Shape := ⟨0, ![]⟩
abbrev S1 : Shape := ⟨1, ![1]⟩
abbrev S1x625000 : Shape := ⟨2, ![1, 625000]⟩
abbrev S625000 : Shape := ⟨1, ![625000]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 45
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S128, .f32⟩
  | .hbm, ⟨17, _⟩ => ⟨S128, .f32⟩
  | .hbm, ⟨18, _⟩ => ⟨S1x625000, .i32⟩
  | .hbm, ⟨19, _⟩ => ⟨S625000, .i32⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S1x625000, .i32⟩
  | .hbm, ⟨30, _⟩ => ⟨S625000, .i32⟩
  | .hbm, ⟨31, _⟩ => ⟨S_, .i32⟩
  | .hbm, ⟨32, _⟩ => ⟨S625000, .i32⟩
  | .hbm, ⟨33, _⟩ => ⟨S625000, .i1⟩
  | .hbm, ⟨34, _⟩ => ⟨S_, .i32⟩
  | .hbm, ⟨35, _⟩ => ⟨S625000, .i32⟩
  | .hbm, ⟨36, _⟩ => ⟨S625000, .i32⟩
  | .hbm, ⟨37, _⟩ => ⟨S625000, .i32⟩
  | .hbm, ⟨38, _⟩ => ⟨S625000x1, .i32⟩
  | .hbm, ⟨39, _⟩ => ⟨S625000x128, .f32⟩
  | .hbm, ⟨40, _⟩ => ⟨S1x128, .f32⟩
  | .hbm, ⟨41, _⟩ => ⟨S1x128, .f32⟩
  | .hbm, ⟨42, _⟩ => ⟨S128x128, .f32⟩
  | .hbm, ⟨43, _⟩ => ⟨S128x128, .bf16⟩
  | .hbm, ⟨44, _⟩ => ⟨S625000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  bcast_S625000_S625000x1_0 : S625000.BroadcastsInDim S625000x1 (![0] : Fin 1 → Fin S625000x1.rank)
  slices_S2x625000_S1x625000_1_0 : S2x625000.Slices ![1, 0] S1x625000
  shapeCasts_S128_S1x128 : S128.ShapeCasts S1x128
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S625000x1_S625000x128_1_0_n_n_0_1_1128_wf : GatherDims.WF S100000x128 S625000x1 S625000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S625000x128.size a
  hwx0_1 : ∀ i : grid0.Coords, EltTy.bits .f32 = 32 ∨ (Rect.block (s := S625000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S625000x128.size a
  hwx0_5 : ∀ i : grid0.Coords, EltTy.bits .f32 = 32 ∨ (Rect.block (s := S625000x128) S5000x128.size (cc0_transform_5 i) (hinb0_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S_ : Shape := ⟨0, ![]⟩
abbrev S1 : Shape := ⟨1, ![1]⟩
abbrev S1x625000 : Shape := ⟨2, ![1, 625000]⟩
abbrev S625000 : Shape := ⟨1, ![625000]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S128, .f32⟩
  | .hbm, ⟨17, _⟩ => ⟨S128, .f32⟩
  | .hbm, ⟨18, _⟩ => ⟨S1x625000, .i32⟩
  | .hbm, ⟨19, _⟩ => ⟨S625000, .i32⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S1x625000, .i32⟩
  | .hbm, ⟨30, _⟩ => ⟨S625000, .i32⟩
  | .hbm, ⟨31, _⟩ => ⟨S_, .i32⟩
  | .hbm, ⟨32, _⟩ => ⟨S625000, .i32⟩
  | .hbm, ⟨33, _⟩ => ⟨S625000, .i1⟩
  | .hbm, ⟨34, _⟩ => ⟨S_, .i32⟩
  | .hbm, ⟨35, _⟩ => ⟨S625000, .i32⟩
  | .hbm, ⟨36, _⟩ => ⟨S625000, .i32⟩
  | .hbm, ⟨37, _⟩ => ⟨S625000, .i32⟩
  | .hbm, ⟨38, _⟩ => ⟨S625000x1, .i32⟩
  | .hbm, ⟨39, _⟩ => ⟨S625000x128, .f32⟩
  | .hbm, ⟨40, _⟩ => ⟨S625000x128, .f32⟩
  | .hbm, ⟨41, _⟩ => ⟨S1x128, .f32⟩
  | .hbm, ⟨42, _⟩ => ⟨S625000x128, .f32⟩
  | .hbm, ⟨43, _⟩ => ⟨S625000x128, .f32⟩
  | .hbm, ⟨44, _⟩ => ⟨S625000x128, .f32⟩
  | .hbm, ⟨45, _⟩ => ⟨S1x128, .f32⟩
  | .hbm, ⟨46, _⟩ => ⟨S625000x128, .f32⟩
  | .hbm, ⟨47, _⟩ => ⟨S625000x128, .f32⟩
  | .hbm, ⟨48, _⟩ => ⟨S_, .f32⟩
  | .hbm, ⟨49, _⟩ => ⟨S625000x128, .f32⟩
  | .hbm, ⟨50, _⟩ => ⟨S625000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  bcast_S625000_S625000x1_0 : S625000.BroadcastsInDim S625000x1 (![0] : Fin 1 → Fin S625000x1.rank)
  slices_S2x625000_S1x625000_1_0 : S2x625000.Slices ![1, 0] S1x625000
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  gather_S100000x128_S625000x1_S625000x128_1_0_n_n_0_1_1128_wf : GatherDims.WF S100000x128 S625000x1 S625000x128 [1] [0] [] [0] [] 1 ![1, 128]
  dot_S625000x128_S128x128_S625000x128_1_1_0_0_n_n_wf : DotDims.WF S625000x128 S128x128 S625000x128 [1] [1] [0] [0] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S625000x128_S128x128_S625000x128_1_1_0_0_n_n : DotDims S625000x128 S128x128 S625000x128 where
  lhsContracting := [1]
  rhsContracting := [1]
  lhsNonContracting := [0]
  rhsNonContracting := [0]
  lhsBatch := []
  rhsBatch := []
  wf := dot_S625000x128_S128x128_S625000x128_1_1_0_0_n_n_wf

class Facts : Prop extends Facts₀ where

variable [Facts]
-- ==== Proof.EdgeSpec.lean ====
/-
  The edge features both programs compute, as one function of five arrays.

  For an edge `e` with gathered endpoint rows `src e` and `tgt e`, per-feature weights `a`, a linear layer `W`
  (one row per output feature) and a bias `b`, output feature `o` is

      max (∑ k, ((src e k + tgt e k) · a k) · W o k + b o) 0

  on the extended reals: the weighted sum of the two endpoint rows, the linear layer, the bias, the rectifier.
  `cell` is that number from the four rows and the bias entry it depends on; `edgeOut` lays the cells out over
  the [625000, 128] result. Nothing here needs finiteness: the two programs differ only in where the operands
  of this one expression are stored, never in how it is bracketed.
-/
import Idealize.ShloMosaic.Lib.ValueIdx

open scoped BigOperators

noncomputable section

namespace Cert.EdgeAttn

open Idealize.ShloMosaic Idealize.ShloMosaic.ValueIdx

/-- One output feature of one edge, from the edge's two endpoint rows `s`, `t`, the feature weights `a`, the
    linear layer's row `w` for that output feature, and that feature's bias. -/
def cell (s t a w : Fin 128 → EReal) (bias : EReal) : EReal :=
  max ((∑ k : Fin 128, ((s k + t k) * a k) * w k) + bias) 0

/-- The whole result: entry `(e, o)` is the cell of rows `e` of `src` and `tgt`, the weights, row `o` of `W`
    and entry `o` of `b`. -/
def edgeOut (src tgt : (⟨2, ![625000, 128]⟩ : Shape).Idx → EReal) (a : (⟨1, ![128]⟩ : Shape).Idx → EReal)
    (W : (⟨2, ![128, 128]⟩ : Shape).Idx → EReal) (b : (⟨1, ![128]⟩ : Shape).Idx → EReal) :
    (⟨2, ![625000, 128]⟩ : Shape).Idx → EReal :=
  fun j => cell (fun k => src (ix2 (j 0) k)) (fun k => tgt (ix2 (j 0) k)) (fun k => a (ix1 k))
    (fun k => W (ix2 (j 1) k)) (b (ix1 (j 1)))

theorem edgeOut_apply (src tgt : (⟨2, ![625000, 128]⟩ : Shape).Idx → EReal) (a : (⟨1, ![128]⟩ : Shape).Idx → EReal)
    (W : (⟨2, ![128, 128]⟩ : Shape).Idx → EReal) (b : (⟨1, ![128]⟩ : Shape).Idx → EReal) (e : Fin 625000) (o : Fin 128) :
    edgeOut src tgt a W b (ix2 e o) = cell (fun k => src (ix2 e k)) (fun k => tgt (ix2 e k)) (fun k => a (ix1 k))
      (fun k => W (ix2 o k)) (b (ix1 o)) := rfl

end Cert.EdgeAttn

end
-- ==== Proof.RefValue.lean ====
/-
  The reference computes `edgeOut`.

  Its last stages are: add the two gathered arrays, multiply by the feature weights broadcast along the edges,
  contract with the linear layer along the layer's SECOND axis (`ed,od->eo`), add the bias broadcast along the
  edges, and take the maximum with zero. Read at entry `(e, o)`, stage by stage, that is the cell of rows `e` of
  the two gathered arrays, the weights, row `o` of the layer and bias entry `o`. The gathered arrays and the
  softmax weights are kept as the stages that produce them; nothing about them is used.
-/
import proofs.«127323_j34256659153217_1_alg».proof.Proof.Gen.ReferenceIdeal.Read
import proofs.«127323_j34256659153217_1_alg».proof.Proof.EdgeSpec

open scoped BigOperators

noncomputable section

namespace Cert.EdgeAttn

open Cert.ReferenceIdeal Cert.ReferenceIdeal.Read Idealize.ShloMosaic Idealize.ShloMosaic.ValueIdx

/-- The left operand of the contraction at output `(e, o)` and position `k` is entry `(e, k)`. -/
theorem lidx_eq (e : Fin 625000) (o k : Fin 128) : lidx_main_v32 (ix2 e o) k = ix2 e k :=
  funext fun a => Fin.ext (by match a with | ⟨0, _⟩ => rfl | ⟨1, _⟩ => rfl)

/-- The right operand of the contraction at output `(e, o)` and position `k` is the layer's entry `(o, k)`. -/
theorem ridx_eq (e : Fin 625000) (o k : Fin 128) : ridx_main_v32 (ix2 e o) k = ix2 o k :=
  funext fun a => Fin.ext (by match a with | ⟨0, _⟩ => rfl | ⟨1, _⟩ => rfl)

/-- The weights broadcast along the edges, read at `(e, k)`, are weight `k`. -/
theorem widx_eq (e : Fin 625000) (k : Fin 128) : idx_main_v29 (idx_main_v30 (ix2 e k)) = ix1 k :=
  funext fun a => Fin.ext (by match a with | ⟨0, _⟩ => rfl)

/-- The bias broadcast along the edges, read at `(e, o)`, is bias entry `o`. -/
theorem bidx_eq (e : Fin 625000) (o : Fin 128) : idx_main_v33 (idx_main_v34 (ix2 e o)) = ix1 o :=
  funext fun a => Fin.ext (by match a with | ⟨0, _⟩ => rfl)

/-- The reference's result is `edgeOut` of its two gathered arrays, its softmax weights, the layer and the bias. -/
theorem ref_eq (x0 : S100000x128.Idx → EReal) (x1 : S2x625000.Idx → BitVec 32) (x2 : S128.Idx → EReal)
    (x3 : S128x128.Idx → EReal) (x4 : S128.Idx → EReal) :
    val_main_v36 (F := Ideal) x0 x1 x2 x3 x4
      = edgeOut (val_main_v18 (F := Ideal) x0 x1) (val_main_v27 (F := Ideal) x0 x1) (val_main_v9 (F := Ideal) x2) x3 x4 := by
  funext j
  obtain ⟨e, o, rfl⟩ : ∃ (e : Fin 625000) (o : Fin 128), j = ix2 e o := ⟨j 0, j 1, eq_ix2 j⟩
  rw [edgeOut_apply, val_main_v36_apply, val_main_v35_apply, val_main_v32_apply, val_main_v34_apply,
    val_main_v33_apply, val_main_call0_v0_apply, val_main_call0_cst_apply, bidx_eq]
  simp only [val_main_v31_apply, val_main_v28_apply, val_main_v30_apply, val_main_v29_apply, lidx_eq, ridx_eq, widx_eq,
    Ideal.maximumf_def, Ideal.addf_def, Ideal.mulf_def, Ideal.ofBits_def, Ideal.ofBits_zero_f32]
  rfl

end Cert.EdgeAttn

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KerPayload.lean ====
/-
  What the kernel body stores, entry by entry.

  At one grid point the body loads a [5000, 128] block of each gathered endpoint array, the [1, 128] row of
  feature weights, the [128, 128] transposed linear layer and the [1, 128] bias row, and stores

      max (((x0 + x1) · a) × Wt + b) 0,

  the product `×` a matrix product into a zero accumulator. Read at entry `(p, q)` on the extended reals — a
  change of float format is the identity there, and the product is the plain sum over the 128 contracted
  positions — this is the cell of rows `p` of the two blocks, the weight row, COLUMN `q` of the transposed layer
  and bias entry `q`.
-/
import proofs.«127323_j34256659153217_1_alg».proof.Proof.Gen.KernelIdeal.Skeleton
import proofs.«127323_j34256659153217_1_alg».proof.Proof.EdgeSpec
import proofs.«127323_j34256659153217_1_alg».proof.Proof.LibPlainDot
import Idealize.ShloMosaic.Lib.ValueLayout
import Idealize.ShloMosaic.Lib.Pipeline.Value

open scoped BigOperators

noncomputable section

namespace Cert.EdgeAttn

open Cert.KernelIdeal Cert.KernelIdeal.Gen Idealize.ShloMosaic Idealize.ShloMosaic.ValueIdx

/-- The body's stored value at `(p, q)`: the cell of the loaded blocks' rows `p`, the weight row, column `q` of
    the loaded layer and bias entry `q`. -/
theorem pay_apply (x0 x1 : Vec Ideal S5000x128 .f32) (x2 : Vec Ideal S1x128 .f32) (x3 : Vec Ideal S128x128 .bf16)
    (x4 : Vec Ideal S1x128 .f32) (p : Fin 5000) (q : Fin 128) :
    k0_pay1 (F := Ideal) x0 x1 x2 x3 x4 (ix2 p q)
      = cell (fun k => x0 (ix2 p k)) (fun k => x1 (ix2 p k)) (fun k => x2 (ix2 (0 : Fin 1) k))
          (fun k => x3 (ix2 k q)) (x4 (ix2 (0 : Fin 1) q)) := by
  unfold k0_pay1 cell
  dsimp only
  simp only [shapeCast_self]
  rw [maximumf_apply, addf_apply, broadcast_apply,
    PlainDot.matmul_zero_apply dot_S5000x128_S128x128_S5000x128_1_0_0_1_n_n rfl rfl rfl rfl rfl rfl rfl rfl,
    broadcastTo_1b_ab_apply]
  simp only [truncf_apply, mulf_apply, addf_apply, broadcastTo_1b_ab_apply, Ideal.ofBits_def, Ideal.ofBits_zero_f32]

/-- So a block's stored entry `(p, q)` is entry `(e, q)` of `edgeOut`, as soon as the loaded blocks hold what
    `edgeOut` reads there: rows `p` of the two endpoint blocks are rows `e` of the gathered arrays, the weight row
    is the weights, the loaded layer is the layer transposed, and the bias row is the bias. -/
theorem pay_eq_edgeOut (x0 x1 : Vec Ideal S5000x128 .f32) (x2 : Vec Ideal S1x128 .f32) (x3 : Vec Ideal S128x128 .bf16)
    (x4 : Vec Ideal S1x128 .f32) (src tgt : (⟨2, ![625000, 128]⟩ : Shape).Idx → EReal)
    (a : (⟨1, ![128]⟩ : Shape).Idx → EReal) (W : (⟨2, ![128, 128]⟩ : Shape).Idx → EReal)
    (b : (⟨1, ![128]⟩ : Shape).Idx → EReal) (p : Fin 5000) (q : Fin 128) (e : Fin 625000)
    (h0 : ∀ k : Fin 128, x0 (ix2 p k) = src (ix2 e k)) (h1 : ∀ k : Fin 128, x1 (ix2 p k) = tgt (ix2 e k))
    (h2 : ∀ k : Fin 128, x2 (ix2 (0 : Fin 1) k) = a (ix1 k)) (h3 : ∀ k : Fin 128, x3 (ix2 k q) = W (ix2 q k))
    (h4 : x4 (ix2 (0 : Fin 1) q) = b (ix1 q)) :
    k0_pay1 (F := Ideal) x0 x1 x2 x3 x4 (ix2 p q) = edgeOut src tgt a W b (ix2 e q) := by
  rw [pay_apply, edgeOut_apply]
  simp only [h0, h1, h2, h3, h4]

end Cert.EdgeAttn

end
-- ==== Proof.KerHost.lean ====
/-
  The arrays the kernel's region finds.

  Before the region the host program computes the softmax of the attention weights, gathers the two endpoint
  arrays, reshapes the weights and the bias to one row each, and transposes the linear layer (then narrows it,
  which changes nothing on the extended reals). These are, operation for operation, the stages the reference
  runs to get its own gathered arrays and weights, so each array is stated as that stage of the launch contents.
-/
import proofs.«127323_j34256659153217_1_alg».proof.Proof.Gen.KernelIdeal.Frame
import proofs.«127323_j34256659153217_1_alg».proof.Proof.Gen.ReferenceIdeal.Read
import Idealize.ShloMosaic.Lib.StableHlo.Run

noncomputable section

namespace Cert.EdgeAttn

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

set_option maxRecDepth 8192 in
set_option maxHeartbeats 2000000 in
/-- The first gathered array is the reference's first gather of the launch contents. -/
theorem V_src (c : Dev nD) : (V m c main_v18 : S625000x128.Idx → EReal)
    = Cert.ReferenceIdeal.Read.val_main_v18 (F := Ideal) (m ((c : Thread nD τ).loc main_arg0)) (m ((c : Thread nD τ).loc main_arg1)) := by
  dsimp only [V, hostOps0]
  after_results_simp
  rfl

set_option maxRecDepth 8192 in
set_option maxHeartbeats 2000000 in
/-- The second gathered array is the reference's second gather of the launch contents. -/
theorem V_tgt (c : Dev nD) : (V m c main_v27 : S625000x128.Idx → EReal)
    = Cert.ReferenceIdeal.Read.val_main_v27 (F := Ideal) (m ((c : Thread nD τ).loc main_arg0)) (m ((c : Thread nD τ).loc main_arg1)) := by
  dsimp only [V, hostOps0]
  after_results_simp
  rfl

set_option maxRecDepth 8192 in
set_option maxHeartbeats 2000000 in
/-- The weight row is the reference's softmax of the launch weights, reshaped to one row. -/
theorem V_wts (c : Dev nD) : (V m c main_v28 : S1x128.Idx → EReal)
    = shapeCast S1x128 (Cert.ReferenceIdeal.Read.val_main_v9 (F := Ideal) (m ((c : Thread nD τ).loc main_arg2)))
        Facts₀.shapeCasts_S128_S1x128 := by
  dsimp only [V, hostOps0]
  after_results_simp
  rfl

set_option maxRecDepth 8192 in
set_option maxHeartbeats 2000000 in
/-- The bias row is the launch bias reshaped to one row. -/
theorem V_bias (c : Dev nD) : (V m c main_v29 : S1x128.Idx → EReal)
    = shapeCast S1x128 (m ((c : Thread nD τ).loc main_arg4) : S128.Idx → EReal) Facts₀.shapeCasts_S128_S1x128 := by
  dsimp only [V, hostOps0]
  after_results_simp
  rfl

set_option maxRecDepth 8192 in
set_option maxHeartbeats 2000000 in
/-- The layer the region loads is the launch layer transposed, then narrowed. -/
theorem V_layer (c : Dev nD) : (V m c main_v31 : S128x128.Idx → EReal)
    = (truncf (F := Ideal) .bf16 (transpose S128x128 [1, 0] (m ((c : Thread nD τ).loc main_arg3) : S128x128.Idx → EReal)
        Facts₀.transposes_S128x128_S128x128_1_0) Facts₀.bitsLt_bf16_f32 : S128x128.Idx → EReal) := by
  dsimp only [V, hostOps0]
  after_results_simp

end Cert.EdgeAttn

end
-- ==== Proof.KerValue.lean ====
/-
  The kernel's result array is `edgeOut` of the same five arrays the reference feeds it.

  The grid has 125 points; point `t` reads rows `5000 t … 5000 t + 4999` of the two gathered arrays, the whole
  weight row, the whole transposed layer and the whole bias row, and writes rows `5000 t … 5000 t + 4999` of the
  result. So what point `t` writes back is that block of rows of `edgeOut` (the stored entry is the cell of the
  rows it loaded: `pay_eq_edgeOut`), the 125 blocks cover the 625000 rows, and the array after the run is
  `edgeOut`.
-/
import proofs.«127323_j34256659153217_1_alg».proof.Proof.Gen.KernelIdeal.Value
import proofs.«127323_j34256659153217_1_alg».proof.Proof.KerPayload
import proofs.«127323_j34256659153217_1_alg».proof.Proof.KerHost
import Idealize.ShloMosaic.Lib.Pipeline.Value
import Idealize.ShloMosaic.Lib.ValueLayout

noncomputable section

namespace Cert.EdgeAttn

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- Where each window's block sits at point `t`: the two gathered arrays' and the result's at row block `t`,
    the three small operands' at the origin (decided over the 125 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the result window ends holding. -/
abbrev result (c : Dev nD) : Buf (Elt Ideal) ((c : Thread nD τ).loc main_v32) :=
  edgeOut (Cert.ReferenceIdeal.Read.val_main_v18 (F := Ideal) (m ((c : Thread nD τ).loc main_arg0)) (m ((c : Thread nD τ).loc main_arg1)))
    (Cert.ReferenceIdeal.Read.val_main_v27 (F := Ideal) (m ((c : Thread nD τ).loc main_arg0)) (m ((c : Thread nD τ).loc main_arg1)))
    (Cert.ReferenceIdeal.Read.val_main_v9 (F := Ideal) (m ((c : Thread nD τ).loc main_arg2)))
    (m ((c : Thread nD τ).loc main_arg3)) (m ((c : Thread nD τ).loc main_arg4))

/-- Row `p` of the first gathered array's block at point `t` is row `5000 t + p` of that array. -/
theorem src_block (c : Dev nD) (t : Fin cfg0.N) (p : Fin 5000) (k : Fin 128) (e : Fin 625000)
    (he : e.val = t.val * 5000 + p.val) :
    (iblk m c 0 t : Vec Ideal S5000x128 .f32) (ix2 p k)
      = Cert.ReferenceIdeal.Read.val_main_v18 (F := Ideal) (m ((c : Thread nD τ).loc main_arg0)) (m ((c : Thread nD τ).loc main_arg1)) (ix2 e k) := by
  obtain ⟨i0, i1, -⟩ := block_index t
  unfold iblk
  rw [View.read_apply]
  show V m c main_v18 _ = _
  rw [V_src]
  congr 1
  funext a
  apply Fin.ext
  match a with
  | ⟨0, _⟩ => show win0_0.index t (0 : Fin 2) * 5000 + 1 * p.val = e.val; omega
  | ⟨1, _⟩ => show win0_0.index t (1 : Fin 2) * 128 + 1 * k.val = k.val; omega

/-- Row `p` of the second gathered array's block at point `t` is row `5000 t + p` of that array. -/
theorem tgt_block (c : Dev nD) (t : Fin cfg0.N) (p : Fin 5000) (k : Fin 128) (e : Fin 625000)
    (he : e.val = t.val * 5000 + p.val) :
    (iblk m c 1 t : Vec Ideal S5000x128 .f32) (ix2 p k)
      = Cert.ReferenceIdeal.Read.val_main_v27 (F := Ideal) (m ((c : Thread nD τ).loc main_arg0)) (m ((c : Thread nD τ).loc main_arg1)) (ix2 e k) := by
  obtain ⟨-, -, i0, i1, -⟩ := block_index t
  unfold iblk
  rw [View.read_apply]
  show V m c main_v27 _ = _
  rw [V_tgt]
  congr 1
  funext a
  apply Fin.ext
  match a with
  | ⟨0, _⟩ => show win0_1.index t (0 : Fin 2) * 5000 + 1 * p.val = e.val; omega
  | ⟨1, _⟩ => show win0_1.index t (1 : Fin 2) * 128 + 1 * k.val = k.val; omega

/-- The weight row every point loads holds the softmax weights. -/
theorem wts_block (c : Dev nD) (t : Fin cfg0.N) (k : Fin 128) :
    (iblk m c 2 t : Vec Ideal S1x128 .f32) (ix2 (0 : Fin 1) k)
      = Cert.ReferenceIdeal.Read.val_main_v9 (F := Ideal) (m ((c : Thread nD τ).loc main_arg2)) (ix1 k) := by
  obtain ⟨-, -, -, -, i0, i1, -⟩ := block_index t
  unfold iblk
  rw [View.read_apply]
  show V m c main_v28 _ = _
  rw [V_wts]
  refine (congrArg _ ?_).trans (shapeCast_a_1a_apply _ _ (0 : Fin 1) k)
  funext a
  apply Fin.ext
  match a with
  | ⟨0, _⟩ => show win0_2.index t (0 : Fin 2) * 1 + 1 * 0 = 0; omega
  | ⟨1, _⟩ => show win0_2.index t (1 : Fin 2) * 128 + 1 * k.val = k.val; omega

/-- The layer every point loads is the launch layer transposed: its entry `(k, q)` is the layer's `(q, k)`. -/
theorem layer_block (c : Dev nD) (t : Fin cfg0.N) (k q : Fin 128) :
    (iblk m c 3 t : Vec Ideal S128x128 .bf16) (ix2 k q)
      = (m ((c : Thread nD τ).loc main_arg3) : S128x128.Idx → EReal) (ix2 q k) := by
  obtain ⟨-, -, -, -, -, -, i0, i1, -⟩ := block_index t
  unfold iblk
  rw [View.read_apply]
  show V m c main_v31 _ = _
  rw [V_layer]
  show transpose S128x128 [1, 0] (m ((c : Thread nD τ).loc main_arg3) : S128x128.Idx → EReal) _ _ = _
  refine (congrArg _ ?_).trans (transpose_ix2_apply _ _ k q)
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row every point loads holds the launch bias. -/
theorem bias_block (c : Dev nD) (t : Fin cfg0.N) (q : Fin 128) :
    (iblk m c 4 t : Vec Ideal S1x128 .f32) (ix2 (0 : Fin 1) q)
      = (m ((c : Thread nD τ).loc main_arg4) : S128.Idx → EReal) (ix1 q) := by
  obtain ⟨-, -, -, -, -, -, -, -, i0, i1, -⟩ := block_index t
  unfold iblk
  rw [View.read_apply]
  show V m c main_v29 _ = _
  rw [V_bias]
  refine (congrArg _ ?_).trans (shapeCast_a_1a_apply _ _ (0 : Fin 1) q)
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-- Entry `(p, q)` of the result's block at point `t` is entry `(5000 t + p, q)` of the result. -/
theorem out_block_emb (t : Fin cfg0.N) (p : Fin 5000) (q : Fin 128) (e : Fin 625000) (he : e.val = t.val * 5000 + p.val) :
    ((cfg0.win 5).blk t).view.emb (ix2 p q) = (ix2 e q : S625000x128.Idx) := by
  obtain ⟨-, -, -, -, -, -, -, -, -, -, i0, i1⟩ := block_index t
  funext a
  apply Fin.ext
  match a with
  | ⟨0, _⟩ => show win0_5.index t (0 : Fin 2) * 5000 + 1 * p.val = e.val; omega
  | ⟨1, _⟩ => show win0_5.index t (1 : Fin 2) * 128 + 1 * q.val = q.val; omega

/-- What point `t` writes back is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero origin2]
  simp only [View.ld_unit_zero (S := S5000x128) origin2, View.ld_unit_zero (S := S1x128) origin2,
    View.ld_unit_zero (S := S128x128) origin2]
  funext j
  obtain ⟨p, q, rfl⟩ : ∃ (p : Fin 5000) (q : Fin 128), j = ix2 p q := ⟨j 0, j 1, eq_ix2 j⟩
  have hN : t.val < 125 := Nat.lt_of_lt_of_eq t.isLt N_0
  obtain ⟨e, he⟩ : ∃ e : Fin 625000, e.val = t.val * 5000 + p.val := ⟨⟨t.val * 5000 + p.val, by have := p.isLt; omega⟩, rfl⟩
  show k0_pay1 (F := Ideal) (iblk m c 0 t) (iblk m c 1 t) (iblk m c 2 t) (iblk m c 3 t) (iblk m c 4 t) (ix2 p q)
    = result m c (((cfg0.win 5).blk t).view.emb (ix2 p q))
  rw [out_block_emb t p q e he]
  exact pay_eq_edgeOut _ _ _ _ _ _ _ _ _ _ p q e (fun k => src_block m c t p k e he) (fun k => tgt_block m c t p k e he)
    (fun k => wts_block m c t k) (fun k => layer_block m c t k q) (bias_block m c t q)

/-- An index of the result array is in point `t`'s block iff each coordinate is in the block's range on its axis. -/
theorem mem_block (t : Fin cfg0.N) (i : S625000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v32).slice (win0_5.rect t)).set ↔ _
  rw [View.set_slice_whole, Rect.mem_set_unit]
  exact Iff.rfl

/-- Every row of the result is in some point's block: row `r` in point `r / 5000`'s. -/
theorem covered (i : S625000x128.Idx) :
    ∃ t : Fin cfg0.N, (cfg0.win 5).flush t = true ∧ i ∈ ((cfg0.win 5).blk t).view.set := by
  have h0 : (i 0).val < 625000 := (i 0).isLt
  have h1 : (i 1).val < 128 := (i 1).isLt
  obtain ⟨t, ht⟩ : ∃ t : Fin cfg0.N, t.val = (i 0).val / 5000 :=
    ⟨⟨(i 0).val / 5000, Nat.lt_of_lt_of_eq (show (i 0).val / 5000 < 125 by omega) N_0.symm⟩, rfl⟩
  obtain ⟨-, -, -, -, -, -, -, -, -, -, f0, f1⟩ := block_index t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array after the run is `result`. -/
theorem final (c : Dev nD) : (dats m 0 c).arrAt 5 cfg0.N = result m c :=
  (dats m 0 c).arrAt_eq_of_cover 5 (result m c) (fun t _ => flushed_eq m c t) covered

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.EdgeAttn

end
-- ==== Proof.lean ====
/-
  Edge features of a graph layer: the kernel and its reference compute the same array over the extended reals.

  Both programs take node embeddings [100000, 128], an edge list [2, 625000], per-feature attention weights
  [128], a linear layer `W` [128, 128] and a bias [128]. Both first take the softmax `a` of the attention weights
  and gather, for every edge, the embeddings of its two endpoints (`src`, `tgt`), by the same host operations.
  The result at edge `e`, output feature `o` is

      max (∑ k, ((src e k + tgt e k) · a k) · W o k + b o) 0.

  The reference computes it on whole arrays, contracting with `W` along `W`'s second axis. The kernel works on 125
  blocks of 5000 edges; on each it forms `(src + tgt) · a`, multiplies it as a matrix with the TRANSPOSED layer
  (narrowed to a shorter float format, which is the identity on the extended reals) into a zero accumulator,
  adds the bias row and takes the maximum with zero. Entry by entry the two are the same sum of the same 128
  products, with the same bias and the same maximum: no law of arithmetic is needed to join them, only where
  each operand is stored (a block's row `p` at point `t` is row `5000 t + p`; the transposed layer's entry
  `(k, o)` is the layer's `(o, k)`), so the precondition is never opened.

  `EdgeSpec` states the function, `RefValue` reads the reference's last stages as it, `KerPayload` the kernel body's
  stored entry, `KerHost` the arrays the kernel's region finds, `KerValue` the kernel's result array. The frames
  of the two kernel programs are their generated frame runs; the reference's is its generated run with the
  result dropped. The idealization rewrote nothing, so its soundness claim is `True`.
-/
import proofs.«127323_j34256659153217_1_alg».proof.Defs
import proofs.«127323_j34256659153217_1_alg».proof.Proof.Gen.Kernel
import proofs.«127323_j34256659153217_1_alg».proof.Proof.Gen.Kernel.Skeleton
import proofs.«127323_j34256659153217_1_alg».proof.Proof.Gen.Kernel.Launch
import proofs.«127323_j34256659153217_1_alg».proof.Proof.Gen.Kernel.Points
import proofs.«127323_j34256659153217_1_alg».proof.Proof.Gen.Kernel.Frame
import proofs.«127323_j34256659153217_1_alg».proof.Proof.Gen.KernelIdeal
import proofs.«127323_j34256659153217_1_alg».proof.Proof.Gen.KernelIdeal.Skeleton
import proofs.«127323_j34256659153217_1_alg».proof.Proof.Gen.KernelIdeal.Launch
import proofs.«127323_j34256659153217_1_alg».proof.Proof.Gen.KernelIdeal.Points
import proofs.«127323_j34256659153217_1_alg».proof.Proof.Gen.KernelIdeal.Frame
import proofs.«127323_j34256659153217_1_alg».proof.Proof.Gen.ReferenceIdeal
import proofs.«127323_j34256659153217_1_alg».proof.Proof.Gen.Pre_finite_inputs
import proofs.«127323_j34256659153217_1_alg».proof.Proof.Gen.KernelIdeal.Value
import proofs.«127323_j34256659153217_1_alg».proof.Proof.Gen.ReferenceIdeal.Run
import proofs.«127323_j34256659153217_1_alg».proof.Proof.Gen.ReferenceIdeal.Read
import proofs.«127323_j34256659153217_1_alg».proof.Proof.RefValue
import proofs.«127323_j34256659153217_1_alg».proof.Proof.KerValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with `edgeOut` of the same gathered
    arrays, softmax weights, layer and bias in their result arrays. -/
theorem algebraic : Cert.algebraic_KernelIdeal_ReferenceIdeal := by
  intro m ρ m' ρ' _ hagree
  refine ⟨fun c => Cert.EdgeAttn.result m c, Cert.EdgeAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.EdgeAttn.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
